-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S50000x256 .f32) (main_arg5 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x256 : Shape := ⟨2, ![256, 256]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩

abbrev nBuf : Space → Nat
  | .hbm => 24
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x256, .f32⟩
  | .hbm, ⟨5, _⟩ => ⟨S256x256, .f32⟩
  | .hbm, ⟨6, _⟩ => ⟨S50000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S_ : Shape := ⟨0, ![]⟩
abbrev S800000x1 : Shape := ⟨2, ![800000, 1]⟩
abbrev S800000x256 : Shape := ⟨2, ![800000, 256]⟩

abbrev nBuf : Space → Nat
  | .hbm => 33
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000x256, .f32⟩
  | .hbm, ⟨5, _⟩ => ⟨S256x256, .f32⟩
  | .hbm, ⟨6, _⟩ => ⟨S50000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S50000x256, .f32⟩
  | .hbm, ⟨21, _⟩ => ⟨S800000x1, .i32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S50000x256, .f32⟩
  | .hbm, ⟨32, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.Layer.lean ====
/-
  The layer as ONE function of the six argument arrays, over the extended reals.

  With X the node features [50000, 256], W the weight [256, 256], (src, dst, w) the 800000 weighted edges and
  R the residual features [50000, 256]:

    support  S[i, j]   = Σ_k X[i, k] · W[k, j]
    messages M[e, j]   = S[src'[e], j] · w[e]          (src' = src + 50000 where src < 0, else src)
    aggregate A[i, j]  = Σ_{e : dst[e] = i} M[e, j]    (a scatter-add into a zero array)
    result   out[i, j] = max (A[i, j] · ½ + R[i, j] · ½) 0

  The gather, the scaling by the edge weight and the scatter-add are the SAME host operations in both programs,
  so they are kept as one function `aggregate` of the support array and never opened: the two programs differ
  only in how they compute S (the kernel block of 2000 rows by block, the reference in one product) and where
  they evaluate the last line (the kernel block by block, the reference on the whole array).
-/
import proofs.«130734_j12515534700681_1_alg».proof.KernelIdeal
import Idealize.ShloMosaic.PureOps.Ideal.Laws

noncomputable section

namespace Cert.Layer

open Idealize.ShloMosaic Cert.KernelIdeal

variable [Cert.KernelIdeal.Facts]
open Cert.KernelIdeal.Facts₀ Cert.KernelIdeal.Facts

/-- Entry (row of `i`, `k`) of the left factor: what the k-th term of S[i] reads of X. -/
abbrev lhsAt (i : S50000x256.Idx) (k : Fin 256) : S50000x256.Idx := fun a => match a with
  | ⟨0, _⟩ => ⟨(i 0).val, (i 0).isLt⟩
  | ⟨1, _⟩ => ⟨k.val, k.isLt⟩
/-- Entry (`k`, column of `i`) of the right factor: what the k-th term of S[i] reads of W. -/
abbrev rhsAt (i : S50000x256.Idx) (k : Fin 256) : S256x256.Idx := fun a => match a with
  | ⟨0, _⟩ => ⟨k.val, k.isLt⟩
  | ⟨1, _⟩ => ⟨(i 1).val, (i 1).isLt⟩

/-- S = X · W, entry by entry a sum of 256 products of extended reals. -/
def support (x : (⟨S50000x256, .f32⟩ : BufTy).Contents (Elt Ideal)) (w : (⟨S256x256, .f32⟩ : BufTy).Contents (Elt Ideal)) :
    (⟨S50000x256, .f32⟩ : BufTy).Contents (Elt Ideal) :=
  fun i => ∑ k : Fin 256, x (lhsAt i k) * w (rhsAt i k)

variable {F : FTy → Type} [FloatOps F]

/-- The edge stage, shared by both programs: rows of `s` gathered at the (wrapped) sources, scaled by the edge
    weights, and summed into the rows the destinations name, starting from zero. -/
def aggregate (s : (⟨S50000x256, .f32⟩ : BufTy).Contents (Elt F)) (src dst : (⟨S800000, .i32⟩ : BufTy).Contents (Elt F))
    (w : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32))
    (broadcastInDim S800000x1 ![0] bcast_S800000_S800000x1_0 dst)
    (mulf
      (Host.gather gather_S50000x256_S800000x1_S800000x256_1_0_n_n_0_1_1256 s
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x256 ![0, 1] bcast_S800000x1_S800000x256_0_1
        (broadcastInDim S800000x1 ![0] bcast_S800000_S800000x1_0 w)))

/-- The last line at one entry: the even blend of the aggregate and the residual, clipped below at zero. -/
def blendAt (a r : F .f32) : F .f32 :=
  FloatOps.maximumf (FloatOps.addf (FloatOps.mulf a (FloatOps.ofBits .f32 0x3F000000#32)) (FloatOps.mulf r (FloatOps.ofBits .f32 0x3F000000#32)))
    (FloatOps.ofBits .f32 0x00000000#32)

/-- The last line on whole arrays, entry by entry. -/
def blend (a r : (⟨S50000x256, .f32⟩ : BufTy).Contents (Elt F)) : (⟨S50000x256, .f32⟩ : BufTy).Contents (Elt F) :=
  fun i => blendAt (a i) (r i)

/-- The whole layer at the extended reals. -/
def layer (x : (⟨S50000x256, .f32⟩ : BufTy).Contents (Elt Ideal)) (src dst : (⟨S800000, .i32⟩ : BufTy).Contents (Elt Ideal))
    (w : (⟨S800000, .f32⟩ : BufTy).Contents (Elt Ideal)) (r : (⟨S50000x256, .f32⟩ : BufTy).Contents (Elt Ideal))
    (wt : (⟨S256x256, .f32⟩ : BufTy).Contents (Elt Ideal)) : (⟨S50000x256, .f32⟩ : BufTy).Contents (Elt Ideal) :=
  blend (aggregate (support x wt) src dst w) r

end Cert.Layer

end
-- ==== Proof.Blend.lean ====
/-
  Region 1 (the blend), read as a value: whatever the TensorCore's buffers hold when the region is entered
  (`V`), the result array ends at `blend` of the two arrays the region reads — entry by entry
  `max (a · ½ + r · ½) 0`.

  The grid has 25 points; at point t every window's block is rows [2000 t, 2000 t + 2000) of its array, all 256
  columns. The body stores one pointwise expression of its two loaded blocks, so what point t writes back is block t
  of the whole-array function, and the 25 blocks cover the 50000 rows.
-/
import proofs.«130734_j12515534700681_1_alg».proof.Proof.Gen.KernelIdeal.Frame
import proofs.«130734_j12515534700681_1_alg».proof.Proof.Layer
import Idealize.ShloMosaic.Lib.Pipeline.Value

set_option maxRecDepth 16384

noncomputable section

namespace Cert.Layer.Blend

open Idealize.ShloMosaic Idealize.ShloMosaic.TcCoe Idealize.SL.Sem
open Cert.KernelIdeal Cert.KernelIdeal.Gen Cert.Layer

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The body's stored value is the blend of its two loaded blocks, entry by entry (the shape cast is between equal
    shapes, so it changes nothing). -/
theorem payload_eq (x0 x1 : Vec F S2000x256 .f32) : k1_pay1 x0 x1 = fun j => blendAt (x0 j) (x1 j) := by
  unfold k1_pay1
  rw [shapeCast_self]
  rfl

/-- At every grid point the three windows sit on the same block: block row t (at most 24), block column 0. -/
theorem same_block : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 24 ∧ win1_2.index t (1 : Fin 2) = 0 :=
  (by decide +kernel : ∀ t : Fin grid1.N, _)

/-- Every block row is some point's. -/
theorem block_row_hit : ∀ q : Fin 25, ∃ t : Fin cfg1.N, win1_2.index t = ![q.val, 0] :=
  (by decide +kernel : ∀ q : Fin 25, ∃ t : Fin grid1.N, win1_2.index t = ![q.val, 0])

/-- What point t writes back is block t of the blend of the two arrays as the region finds them: each input block
    is read at the rows the output block names, because the three windows share their block index. -/
theorem flushed_eq (c : Dev nD) (t : Fin cfg1.N) :
    (dat1 V c).flushed 2 t = ((cfg1.win 2).blk t).view.read (Elt F) (blend (V c main_v13) (V c main_arg4)) := by
  show (cfg1.win 2).cut (grid1.coords t) ((dat1 V c).after 2 t) = _
  rw [after1_2]
  unfold out1_2
  rw [View.canon_unit_zero origin]
  simp only [View.ld_unit_zero (S := S2000x256) origin]
  rw [payload_eq]
  obtain ⟨e0, e1, e2, e3, e4, e5⟩ := same_block t
  funext j
  show blendAt (V c main_v13 (((cfg1.win 0).blk t).view.emb j)) (V c main_arg4 (((cfg1.win 1).blk t).view.emb j))
    = blendAt (V c main_v13 (((cfg1.win 2).blk t).view.emb j)) (V c main_arg4 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 256 + 1 * (j 1).val = win1_2.index t (1 : Fin 2) * 256 + 1 * (j 1).val; omega
  rw [h0, h1]

/-- An entry of the result array lies in point t's block iff each coordinate lies in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v14).slice (win1_2.rect t)).set ↔ _
  rw [View.set_slice_whole, Rect.mem_set_unit]
  exact Iff.rfl

/-- Every entry is written back by some point: row r by point r / 2000. -/
theorem covered (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := block_row_hit ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE RESULT ARRAY after region 1: the blend of the aggregate array and the residual array as the region found them. -/
theorem array_eq (c : Dev nD) : (dat1 V c).arrAt 2 cfg1.N = blend (V c main_v13) (V c main_arg4) :=
  (dat1 V c).arrAt_eq_of_cover 2 (blend (V c main_v13) (V c main_arg4)) (fun t _ => flushed_eq V c t) covered

end Cert.Layer.Blend

end
-- ==== Proof.Support.lean ====
/-
  Region 0 (the matrix product), read as a value at the extended reals: whatever the TensorCore's buffers hold when
  the region is entered (`V`), the region's result array ends at `support` of the two arrays it reads,
  S[i, j] = Σ_k X[i, k] · W[k, j].

  The grid has 25 points. At point t the left window's block is rows [2000 t, 2000 t + 2000) of X and the result
  window's block the same rows of S; the right window's block is all of W at every point. The body rounds both
  blocks to bf16 — no change at the extended reals — and multiplies them into a zero accumulator, so entry (p, q)
  of what point t writes back is Σ_k X[2000 t + p, k] · W[k, q]: entry (2000 t + p, q) of S. The 25 blocks cover
  the 50000 rows.
-/
import proofs.«130734_j12515534700681_1_alg».proof.Proof.Gen.KernelIdeal.Frame
import proofs.«130734_j12515534700681_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.Layer.Support

open Idealize.ShloMosaic Idealize.ShloMosaic.TcCoe Idealize.SL.Sem
open Cert.KernelIdeal Cert.KernelIdeal.Gen Cert.Layer

variable (V : (c : Dev nD) → (b : Ref sig .tc) → Buf (Elt Ideal) ((c : Thread nD τ).loc b))

theorem origin : (![0, 0] : Fin 2 → Nat) = fun _ => 0 := funext fun a => by fin_cases a <;> rfl

/-- The two arrays the region reads, as it finds them: X (the left factor) and W (the right factor). -/
abbrev leftArr (c : Dev nD) : (⟨S50000x256, .f32⟩ : BufTy).Contents (Elt Ideal) := V c main_arg0
abbrev rightArr (c : Dev nD) : (⟨S256x256, .f32⟩ : BufTy).Contents (Elt Ideal) := V c main_arg5

/-! ## The body's product at one entry of a block -/

/-- Which entry of the left block, and of the right block, the k-th term of the sum for entry `j` reads. -/
abbrev blockLhsAt (j : S2000x256.Idx) (k : Fin 256) : S2000x256.Idx := fun a => match a with
  | ⟨0, _⟩ => ⟨(j 0).val, (j 0).isLt⟩
  | ⟨1, _⟩ => ⟨k.val, k.isLt⟩
abbrev blockRhsAt (j : S2000x256.Idx) (k : Fin 256) : S256x256.Idx := fun a => match a with
  | ⟨0, _⟩ => ⟨k.val, k.isLt⟩
  | ⟨1, _⟩ => ⟨(j 1).val, (j 1).isLt⟩

/-- The product's index maps, axis by axis: the left factor is read at (row of the result entry, contracted
    index), the right factor at (contracted index, column of the result entry). -/
theorem lhs_axis0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_axis1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_axis0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_axis1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value at entry `j` of the block: the rounding to bf16 is the identity on extended reals, and the
    product into the zero accumulator is the plain sum of 256 products. -/
theorem payload_at (x0 : (⟨S2000x256, .f32⟩ : BufTy).Contents (Elt Ideal)) (x1 : (⟨S256x256, .f32⟩ : BufTy).Contents (Elt Ideal)) (j : S2000x256.Idx) :
    k0_pay1 (F := Ideal) x0 x1 j = ∑ k : Fin 256, x0 (blockLhsAt j k) * x1 (blockRhsAt j k) := by
  unfold k0_pay1
  show FloatOps.matmul (F := Ideal) (φ₁ := .bf16) (φ₂ := .bf16) dot_S2000x256_S256x256_S2000x256_1_0_0_1_n_n none x0 x1 (constant (F := Ideal) S2000x256 .f32 0x00000000#32) j = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = blockLhsAt j k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx j ((ValueIdx.contrEquiv1 dot_S2000x256_S256x256_S2000x256_1_0_0_1_n_n 256 rfl rfl).symm k) = blockRhsAt j k := funext fun a => Fin.ext (by
    match a with
    | ⟨0, _⟩ => exact (rhs_axis0 _ _).trans hk
    | ⟨1, _⟩ => exact rhs_axis1 _ _)
  rw [el, er]

/-! ## From the blocks to the array -/

/-- At every grid point: the left window and the result window sit on block row t (at most 24), block column 0;
    the right window on its one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24 ∧ win0_2.index t (1 : Fin 2) = 0 :=
  (by decide +kernel : ∀ t : Fin grid0.N, _)

/-- Every block row is some point's. -/
theorem block_row_hit : ∀ q : Fin 25, ∃ t : Fin cfg0.N, win0_2.index t = ![q.val, 0] :=
  (by decide +kernel : ∀ q : Fin 25, ∃ t : Fin grid0.N, win0_2.index t = ![q.val, 0])

/-- What point t writes back is block t of S = X · W of the two arrays as the region finds them. -/
theorem flushed_eq (c : Dev nD) (t : Fin cfg0.N) :
    (dat0 V c).flushed 2 t = ((cfg0.win 2).blk t).view.read (Elt Ideal) (support (leftArr V c) (rightArr V c)) := by
  show (cfg0.win 2).cut (grid0.coords t) ((dat0 V c).after 2 t) = _
  rw [after0_2]
  unfold out0_2
  rw [View.canon_unit_zero origin]
  simp only [View.ld_unit_zero (S := S2000x256) origin, View.ld_unit_zero (S := S256x256) origin]
  obtain ⟨e0, e1, e2, e3, e4, e5⟩ := block_indices t
  funext j
  show k0_pay1 (F := Ideal) (iblk0 V c 0 t) (iblk0 V c 1 t) j = support (leftArr V c) (rightArr V c) (((cfg0.win 2).blk t).view.emb j)
  refine (payload_at (iblk0 V c 0 t) (iblk0 V c 1 t) j).trans ?_
  unfold support
  refine Finset.sum_congr rfl fun k _ => ?_
  show leftArr V c (((cfg0.win 0).blk t).view.emb (blockLhsAt j k)) * rightArr V c (((cfg0.win 1).blk t).view.emb (blockRhsAt j k))
    = leftArr V c (lhsAt (((cfg0.win 2).blk t).view.emb j) k) * rightArr V c (rhsAt (((cfg0.win 2).blk t).view.emb j) k)
  have h0 : ((cfg0.win 0).blk t).view.emb (blockLhsAt j k) = lhsAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (blockRhsAt j k) = rhsAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  rw [h0, h1]

/-- An entry of the result array lies in point t's block iff each coordinate lies in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every entry is written back by some point: row r by point r / 2000. -/
theorem covered (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_row_hit ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE SUPPORT ARRAY after region 0: S = X · W of the two arrays as the region found them. -/
theorem array_eq (c : Dev nD) : (dat0 V c).arrAt 2 cfg0.N = support (leftArr V c) (rightArr V c) :=
  (dat0 V c).arrAt_eq_of_cover 2 (support (leftArr V c) (rightArr V c)) (fun t _ => flushed_eq V c t) covered

end Cert.Layer.Support

end
-- ==== Proof.Edges.lean ====
/-
  The host operations between the two regions, read as values. They run from the buffers as region 0 left them:
  the support array at region 0's result, every argument still as launched. What region 1 then finds in the array
  it reads as its first operand is `aggregate` of the support array and the three edge arrays, and in its second
  operand the residual features as launched (no host operation writes an argument).
-/
import proofs.«130734_j12515534700681_1_alg».proof.Proof.Gen.KernelIdeal.Frame
import proofs.«130734_j12515534700681_1_alg».proof.Proof.Layer
import Idealize.ShloMosaic.Lib.StableHlo.Run

set_option maxRecDepth 16384

noncomputable section

namespace Cert.Layer.Edges

open Idealize.ShloMosaic Idealize.ShloMosaic.TcCoe Idealize.SL.Sem Idealize.ShloMosaic.StableHlo
open Cert.KernelIdeal Cert.KernelIdeal.Gen Cert.Layer

variable {F : FTy → Type} [FloatOps F]
variable (m : (ℓ : Loc nD τ sig) → Buf (Elt F) ℓ) (ρ : Dev nD → PrngReg)

/-- The aggregate array as region 1 finds it. -/
theorem aggregate_entry (c : Dev nD) :
    V2 m ρ c main_v13 = aggregate (V1 m ρ c main_v0) (m ((c : Thread nD τ).loc main_arg1)) (m ((c : Thread nD τ).loc main_arg2)) (m ((c : Thread nD τ).loc main_arg3)) := by
  show StableHlo.after hostOps1 (W1 m ρ c) (Proc.devRef .tc main_v13) = _
  after_results
  rw [W1_of_ne m ρ c main_arg1 (by decide), W1_of_ne m ρ c main_arg2 (by decide), W1_of_ne m ρ c main_arg3 (by decide)]
  rfl

/-- The residual array as region 1 finds it: as launched. -/
theorem residual_entry (c : Dev nD) : V2 m ρ c main_arg4 = m ((c : Thread nD τ).loc main_arg4) := by
  show StableHlo.after hostOps1 (W1 m ρ c) (Proc.devRef .tc main_arg4) = _
  after_results
  exact (W1_of_ne m ρ c main_arg4 (by decide)).trans rfl

end Cert.Layer.Edges

end
-- ==== Proof.KernelValue.lean ====
/-
  The kernel program's result, at the extended reals, is `layer` of its six argument arrays as launched.

  Read backwards from the last boundary of @main: the result array is what region 1 wrote back, the blend of the
  aggregate array and the residual array as region 1 found them; the aggregate array is `aggregate` of the support
  array as region 0 left it and of the edge arrays as launched; the support array is S = X · W of the features and the
  weight as launched.
-/
import proofs.«130734_j12515534700681_1_alg».proof.Proof.Blend
import proofs.«130734_j12515534700681_1_alg».proof.Proof.Support
import proofs.«130734_j12515534700681_1_alg».proof.Proof.Edges

set_option maxRecDepth 16384

noncomputable section

namespace Cert.Layer.Kernel

open Idealize.ShloMosaic Idealize.ShloMosaic.TcCoe Idealize.SL.Sem
open Cert.KernelIdeal Cert.KernelIdeal.Gen Cert.Layer

variable (m : (ℓ : Loc nD τ sig) → Buf (Elt Ideal) ℓ) (ρ : Dev nD → PrngReg)

/-- The support array as region 0 leaves it: S of the features and the weight as launched. -/
theorem support_exit (c : Dev nD) : V1 m ρ c main_v0 = support (m ((c : Thread nD τ).loc main_arg0)) (m ((c : Thread nD τ).loc main_arg5)) :=
  (W1_arr m ρ c 2).trans (Support.array_eq (V0 m ρ) c)

/-- The result array at @main's last boundary: the layer of the arguments as launched. -/
theorem result_eq (c : Dev nD) :
    W3 m ρ c (Proc.devRef .tc main_v14) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  calc W3 m ρ c (Proc.devRef .tc main_v14)
    _ = (dat1 (V2 m ρ) c).arrAt 2 cfg1.N := W3_arr m ρ c 2
    _ = blend (V2 m ρ c main_v13) (V2 m ρ c main_arg4) := Blend.array_eq (V2 m ρ) c
    _ = blend (aggregate (V1 m ρ c main_v0) (m ((c : Thread nD τ).loc main_arg1)) (m ((c : Thread nD τ).loc main_arg2)) (m ((c : Thread nD τ).loc main_arg3))) (m ((c : Thread nD τ).loc main_arg4)) := by
          rw [Edges.aggregate_entry m ρ c, Edges.residual_entry m ρ c]
    _ = blend (aggregate (support (m ((c : Thread nD τ).loc main_arg0)) (m ((c : Thread nD τ).loc main_arg5))) (m ((c : Thread nD τ).loc main_arg1)) (m ((c : Thread nD τ).loc main_arg2)) (m ((c : Thread nD τ).loc main_arg3))) (m ((c : Thread nD τ).loc main_arg4)) := by
          rw [support_exit m ρ c]
    _ = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

end Cert.Layer.Kernel

end
-- ==== Proof.Reference.lean ====
/-
  The reference's result is `layer` of its six argument arrays. Its one whole-array product is S entry by entry
  (the same sum of 256 products, read at the same entries); its gather, scaling and scatter-add are the operations
  `aggregate` names; and its last line — two products with the constant ½ broadcast over the array, a sum, and a
  maximum with the broadcast zero — is, entry by entry, `blendAt`.
-/
import proofs.«130734_j12515534700681_1_alg».proof.Proof.Gen.ReferenceIdeal.Read
import proofs.«130734_j12515534700681_1_alg».proof.Proof.Gen.KernelIdeal
import proofs.«130734_j12515534700681_1_alg».proof.Proof.Layer

noncomputable section

namespace Cert.Layer.Reference

open Idealize.ShloMosaic Cert.KernelIdeal Cert.Layer Cert.ReferenceIdeal.Read

/-- The reference's product is S: at entry i both are Σ_k X[i₀, k] · W[k, i₁]. -/
theorem product_eq (x : (⟨S50000x256, .f32⟩ : BufTy).Contents (Elt Ideal)) (wt : (⟨S256x256, .f32⟩ : BufTy).Contents (Elt Ideal)) :
    val_main_v0 (F := Ideal) x wt = support x wt := by
  funext i
  rw [val_main_v0_apply]
  rfl

/-- The reference's edge stage is `aggregate` of S: operation for operation the same gather of rows at the wrapped
    sources, scaling by the edge weights and scatter-add at the destinations. -/
theorem edge_stage_eq (x : (⟨S50000x256, .f32⟩ : BufTy).Contents (Elt Ideal)) (src dst : (⟨S800000, .i32⟩ : BufTy).Contents (Elt Ideal))
    (w : (⟨S800000, .f32⟩ : BufTy).Contents (Elt Ideal)) (wt : (⟨S256x256, .f32⟩ : BufTy).Contents (Elt Ideal)) :
    val_main_v13 (F := Ideal) x src dst w wt = aggregate (support x wt) src dst w := by
  rw [← product_eq]
  rfl

/-- The reference's result, entry by entry, is the layer. -/
theorem result_eq (x : (⟨S50000x256, .f32⟩ : BufTy).Contents (Elt Ideal)) (src dst : (⟨S800000, .i32⟩ : BufTy).Contents (Elt Ideal))
    (w : (⟨S800000, .f32⟩ : BufTy).Contents (Elt Ideal)) (r : (⟨S50000x256, .f32⟩ : BufTy).Contents (Elt Ideal))
    (wt : (⟨S256x256, .f32⟩ : BufTy).Contents (Elt Ideal)) :
    val_main_v19 (F := Ideal) x src dst w r wt = layer x src dst w r wt := by
  funext i
  rw [val_main_v19_apply, val_main_v18_apply, val_main_v15_apply, val_main_v17_apply, val_main_call0_v0_apply,
    val_main_v14_apply, val_main_v16_apply, edge_stage_eq]
  rfl

end Cert.Layer.Reference

end
-- ==== Proof.lean ====
/-
  One graph-convolution layer: out = max (A · ½ + R · ½) 0 with A the weighted sum, over the edges into each node,
  of the rows of S = X · W at the edges' sources.

  The kernel program computes S in a TensorCore region (blocks of 2000 rows, both factors rounded to bf16 before the
  product), A by host operations (a gather, a product with the edge weights, a scatter-add), and the last line in a
  second region (blocks of 2000 rows); the reference computes all of it by host operations on whole arrays. Over the
  extended reals the rounding is the identity, a block's product into a zero accumulator is the same sum of 256
  products as the whole-array product at that entry, the edge stage is operation for operation the same in both
  programs, and the last line is pointwise. So both end at ONE function of the six arguments, `Cert.Layer.layer`
  (Proof/Layer.lean): the kernel by Proof/KernelValue.lean (over Proof/Support.lean, Proof/Edges.lean and
  Proof/Blend.lean), the reference by Proof/Reference.lean. No law of arithmetic beyond equality of the two sums term
  by term is used, so the finiteness precondition is never opened.

  The frames of the two kernel programs are the generated ones; the reference's frame is its generated run with the
  result dropped; the idealization rewrote nothing, so `preserves` is `True`.
-/
import proofs.«130734_j12515534700681_1_alg».proof.Defs
import proofs.«130734_j12515534700681_1_alg».proof.Proof.Gen.Kernel
import proofs.«130734_j12515534700681_1_alg».proof.Proof.Gen.Kernel.Skeleton
import proofs.«130734_j12515534700681_1_alg».proof.Proof.Gen.Kernel.Launch
import proofs.«130734_j12515534700681_1_alg».proof.Proof.Gen.Kernel.Points
import proofs.«130734_j12515534700681_1_alg».proof.Proof.Gen.Kernel.Frame
import proofs.«130734_j12515534700681_1_alg».proof.Proof.Gen.KernelIdeal
import proofs.«130734_j12515534700681_1_alg».proof.Proof.Gen.KernelIdeal.Skeleton
import proofs.«130734_j12515534700681_1_alg».proof.Proof.Gen.KernelIdeal.Launch
import proofs.«130734_j12515534700681_1_alg».proof.Proof.Gen.KernelIdeal.Points
import proofs.«130734_j12515534700681_1_alg».proof.Proof.Gen.KernelIdeal.Frame
import proofs.«130734_j12515534700681_1_alg».proof.Proof.Gen.ReferenceIdeal
import proofs.«130734_j12515534700681_1_alg».proof.Proof.Gen.Pre_finite_inputs
import proofs.«130734_j12515534700681_1_alg».proof.Proof.Gen.ReferenceIdeal.Run
import proofs.«130734_j12515534700681_1_alg».proof.Proof.Gen.ReferenceIdeal.Read
import proofs.«130734_j12515534700681_1_alg».proof.Proof.ResultRun
import proofs.«130734_j12515534700681_1_alg».proof.Proof.KernelValue
import proofs.«130734_j12515534700681_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the result array at the layer of the
    arguments: the kernel program by its run with the result read back and `Kernel.result_eq`, the reference by its
    generated run and `Reference.result_eq`. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Layer.Kernel.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v19_eq _ _ _ _ _ _).trans (Cert.Layer.Reference.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
